-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S64x256 : Shape := ⟨2, ![64, 256]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  main_v18

def fn {F : FTy → Type} [FloatOps F] (main_arg0 : FVec F S16x4096x1024 .f32) (main_arg1 : FVec F S64x256 .f32) (main_arg2 : FVec F S64x256 .f32) (main_arg3 : FVec F S64x256 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_v13 main_v16
-- ==== Kernel.lean ====
abbrev S16x4096x1024 : Shape := ⟨3, ![16, 4096, 1024]⟩
abbrev S64x256 : Shape := ⟨2, ![64, 256]⟩
abbrev S65536x1024 : Shape := ⟨2, ![65536, 1024]⟩
abbrev S256x64 : Shape := ⟨2, ![256, 64]⟩
abbrev S65536x256 : Shape := ⟨2, ![65536, 256]⟩
abbrev S2048x1024 : Shape := ⟨2, ![2048, 1024]⟩
abbrev S2048x256 : Shape := ⟨2, ![2048, 256]⟩
abbrev S2048x64 : Shape := ⟨2, ![2048, 64]⟩
abbrev S16x4096x256 : Shape := ⟨3, ![16, 4096, 256]⟩

abbrev nBuf : Space → Nat
  | .hbm => 9
  | .vmem => 5
  | .smem => 0
  | _ => 0

abbrev bufTy : (tb : Table) → Fin (tcTables nBuf tb) → BufTy
  | .hbm, ⟨0, _⟩ => ⟨S16x4096x1024, .f32⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S65536x1024, .f32⟩
  | .hbm, ⟨5, _⟩ => ⟨S256x64, .f32⟩
  | .hbm, ⟨6, _⟩ => ⟨S256x64, .bf16⟩
  | .hbm, ⟨7, _⟩ => ⟨S65536x256, .f32⟩
  | .hbm, ⟨8, _⟩ => ⟨S16x4096x256, .f32⟩
  | .local _ .vmem, ⟨0, _⟩ => ⟨S2048x1024, .f32⟩
  | .local _ .vmem, ⟨1, _⟩ => ⟨S2048x1024, .f32⟩
  | .local _ .vmem, ⟨2, _⟩ => ⟨S256x64, .bf16⟩
  | .local _ .vmem, ⟨3, _⟩ => ⟨S2048x256, .f32⟩
  | .local _ .vmem, ⟨4, _⟩ => ⟨S2048x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4096x1024_S65536x1024 : S16x4096x1024.ShapeCasts S65536x1024
  transposes_S64x256_S256x64_1_0 : S64x256.Transposes [1, 0] S256x64
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2048x1024_S2048x256_0_0 : ∀ a, (![0, 0] : Fin 2 → Nat) a + S2048x256.size a ≤ S2048x1024.size a
  h_S2048x256 : 0 < S2048x256.numel
  shapeCasts_S2048x256_S2048x256 : S2048x256.ShapeCasts S2048x256
  inb_S2048x1024_S2048x256_0_256 : ∀ a, (![0, 256] : Fin 2 → Nat) a + S2048x256.size a ≤ S2048x1024.size a
  inb_S2048x1024_S2048x256_0_512 : ∀ a, (![0, 512] : Fin 2 → Nat) a + S2048x256.size a ≤ S2048x1024.size a
  inb_S2048x1024_S2048x256_0_768 : ∀ a, (![0, 768] : Fin 2 → Nat) a + S2048x256.size a ≤ S2048x1024.size a
  concatenates_S2048x64_S2048x64_S2048x64_S2048x64_S2048x256_d1 : Shape.Concatenates [S2048x64, S2048x64, S2048x64, S2048x64] S2048x256 1
  inb_S2048x256_S2048x256_0_0 : ∀ a, (![0, 0] : Fin 2 → Nat) a + S2048x256.size a ≤ S2048x256.size a
  shapeCasts_S65536x256_S16x4096x256 : S65536x256.ShapeCasts S16x4096x256
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S64x256 : Shape := ⟨2, ![64, 256]⟩
abbrev S16x4096x4x256 : Shape := ⟨4, ![16, 4096, 4, 256]⟩
abbrev S16x4x4096x256 : Shape := ⟨4, ![16, 4, 4096, 256]⟩
abbrev S16x4x4096x64 : Shape := ⟨4, ![16, 4, 4096, 64]⟩
abbrev S16x4x64x64 : Shape := ⟨4, ![16, 4, 64, 64]⟩
abbrev S_ : Shape := ⟨0, ![]⟩
abbrev S16x4x64 : Shape := ⟨3, ![16, 4, 64]⟩
abbrev S16x4x64x1 : Shape := ⟨4, ![16, 4, 64, 1]⟩
abbrev S16x4096x4x64 : Shape := ⟨4, ![16, 4096, 4, 64]⟩
abbrev S16x4096x256 : Shape := ⟨3, ![16, 4096, 256]⟩
abbrev S16x1x4096x256 : Shape := ⟨4, ![16, 1, 4096, 256]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S16x4096x4x256, .f32⟩
  | .hbm, ⟨5, _⟩ => ⟨S16x4x4096x256, .f32⟩
  | .hbm, ⟨6, _⟩ => ⟨S16x4x4096x64, .f32⟩
  | .hbm, ⟨7, _⟩ => ⟨S16x4x4096x64, .f32⟩
  | .hbm, ⟨8, _⟩ => ⟨S16x4x4096x64, .f32⟩
  | .hbm, ⟨9, _⟩ => ⟨S16x4x64x64, .f32⟩
  | .hbm, ⟨10, _⟩ => ⟨S_, .f32⟩
  | .hbm, ⟨11, _⟩ => ⟨S16x4x64x64, .f32⟩
  | .hbm, ⟨12, _⟩ => ⟨S16x4x64x64, .f32⟩
  | .hbm, ⟨13, _⟩ => ⟨S_, .f32⟩
  | .hbm, ⟨14, _⟩ => ⟨S16x4x64, .f32⟩
  | .hbm, ⟨15, _⟩ => ⟨S_, .f32⟩
  | .hbm, ⟨16, _⟩ => ⟨S16x4x64, .f32⟩
  | .hbm, ⟨17, _⟩ => ⟨S16x4x64, .f32⟩
  | .hbm, ⟨18, _⟩ => ⟨S16x4x64x1, .f32⟩
  | .hbm, ⟨19, _⟩ => ⟨S16x4x64x64, .f32⟩
  | .hbm, ⟨20, _⟩ => ⟨S16x4x64x64, .f32⟩
  | .hbm, ⟨21, _⟩ => ⟨S16x4x64x64, .f32⟩
  | .hbm, ⟨22, _⟩ => ⟨S_, .f32⟩
  | .hbm, ⟨23, _⟩ => ⟨S16x4x64, .f32⟩
  | .hbm, ⟨24, _⟩ => ⟨S16x4x64x1, .f32⟩
  | .hbm, ⟨25, _⟩ => ⟨S16x4x64x64, .f32⟩
  | .hbm, ⟨26, _⟩ => ⟨S16x4x64x64, .f32⟩
  | .hbm, ⟨27, _⟩ => ⟨S16x4x4096x64, .f32⟩
  | .hbm, ⟨28, _⟩ => ⟨S16x4096x4x64, .f32⟩
  | .hbm, ⟨29, _⟩ => ⟨S16x4096x256, .f32⟩
  | .hbm, ⟨30, _⟩ => ⟨S16x1x4096x256, .f32⟩
  | .hbm, ⟨31, _⟩ => ⟨S16x4096x256, .f32⟩
  | .hbm, ⟨32, _⟩ => ⟨S16x4096x256, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  shapeCasts_S16x4096x1024_S16x4096x4x256 : S16x4096x1024.ShapeCasts S16x4096x4x256
  transposes_S16x4096x4x256_S16x4x4096x256_0_2_1_3 : S16x4096x4x256.Transposes [0, 2, 1, 3] S16x4x4096x256
  bcast_S_S16x4x64x64 : S_.BroadcastsInDim S16x4x64x64 (![] : Fin 0 → Fin S16x4x64x64.rank)
  reducesTo_S16x4x64x64_S16x4x64_d3 : S16x4x64x64.ReducesTo [3] S16x4x64
  h_S_ : 0 < S_.numel
  bcast_S_S16x4x64 : S_.BroadcastsInDim S16x4x64 (![] : Fin 0 → Fin S16x4x64.rank)
  bcast_S16x4x64_S16x4x64x1_0_1_2 : S16x4x64.BroadcastsInDim S16x4x64x1 (![0, 1, 2] : Fin 3 → Fin S16x4x64x1.rank)
  bcast_S16x4x64x1_S16x4x64x64_0_1_2_3 : S16x4x64x1.BroadcastsInDim S16x4x64x64 (![0, 1, 2, 3] : Fin 4 → Fin S16x4x64x64.rank)
  transposes_S16x4x4096x64_S16x4096x4x64_0_2_1_3 : S16x4x4096x64.Transposes [0, 2, 1, 3] S16x4096x4x64
  shapeCasts_S16x4096x4x64_S16x4096x256 : S16x4096x4x64.ShapeCasts S16x4096x256
  slices_S16x4x4096x256_S16x1x4096x256_0_3_0_0 : S16x4x4096x256.Slices ![0, 3, 0, 0] S16x1x4096x256
  shapeCasts_S16x1x4096x256_S16x4096x256 : S16x1x4096x256.ShapeCasts S16x4096x256
  dot_S16x4x4096x256_S64x256_S16x4x4096x64_3_1_012_0_n_n_wf : DotDims.WF S16x4x4096x256 S64x256 S16x4x4096x64 [3] [1] [0, 1, 2] [0] [] []
  dot_S16x4x4096x64_S16x4x4096x64_S16x4x64x64_2_2_3_3_01_01_wf : DotDims.WF S16x4x4096x64 S16x4x4096x64 S16x4x64x64 [2] [2] [3] [3] [0, 1] [0, 1]
  dot_S16x4x4096x64_S16x4x64x64_S16x4x4096x64_3_2_2_3_01_01_wf : DotDims.WF S16x4x4096x64 S16x4x64x64 S16x4x4096x64 [3] [2] [2] [3] [0, 1] [0, 1]

variable [Facts₀]

def dot_S16x4x4096x256_S64x256_S16x4x4096x64_3_1_012_0_n_n : DotDims S16x4x4096x256 S64x256 S16x4x4096x64 where
  lhsContracting := [3]
  rhsContracting := [1]
  lhsNonContracting := [0, 1, 2]
  rhsNonContracting := [0]
  lhsBatch := []
  rhsBatch := []
  wf := dot_S16x4x4096x256_S64x256_S16x4x4096x64_3_1_012_0_n_n_wf
def dot_S16x4x4096x64_S16x4x4096x64_S16x4x64x64_2_2_3_3_01_01 : DotDims S16x4x4096x64 S16x4x4096x64 S16x4x64x64 where
  lhsContracting := [2]
  rhsContracting := [2]
  lhsNonContracting := [3]
  rhsNonContracting := [3]
  lhsBatch := [0, 1]
  rhsBatch := [0, 1]
  wf := dot_S16x4x4096x64_S16x4x4096x64_S16x4x64x64_2_2_3_3_01_01_wf
def dot_S16x4x4096x64_S16x4x64x64_S16x4x4096x64_3_2_2_3_01_01 : DotDims S16x4x4096x64 S16x4x64x64 S16x4x4096x64 where
  lhsContracting := [3]
  rhsContracting := [2]
  lhsNonContracting := [2]
  rhsNonContracting := [3]
  lhsBatch := [0, 1]
  rhsBatch := [0, 1]
  wf := dot_S16x4x4096x64_S16x4x64x64_S16x4x4096x64_3_2_2_3_01_01_wf

class Facts : Prop extends Facts₀ where

variable [Facts]
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.Spec.lean ====
/-
  The value both programs compute, written once.

  An input row has 1024 entries, read as four heads of 256 entries each. Every head is multiplied by the same
  64-by-256 weight matrix, which gives 64 numbers per head, and the four groups of 64 are laid side by side into 256
  output entries. The last head's own 256 entries are then added entry by entry:

    out[q] = row[3·256 + q] + Σ_{k < 256} row[(q / 64)·256 + k] · weight(k, q mod 64)        (q < 256).

  `rowOut` is that formula for one row; `G` applies it to every row of a [16, 4096, 1024] array, `G2` to every row of
  the same data laid out as [65536, 1024], the weights there given already transposed, as [256, 64].
-/
import Idealize.ShloMosaic.PureOps.Ideal
import Idealize.ShloMosaic.Lib.ValueIdx

noncomputable section

namespace Cert.VResidual

open Idealize.ShloMosaic Idealize.ShloMosaic.ValueIdx
open scoped BigOperators

/-- Entry `d` of head `h` inside a 1024-entry row. -/
def col (h : Fin 4) (d : Fin 256) : Fin 1024 := ⟨h.val * 256 + d.val, by have := h.isLt; have := d.isLt; omega⟩

/-- The head an output entry's product belongs to. -/
def headOf (q : Fin 256) : Fin 4 := ⟨q.val / 64, by have := q.isLt; omega⟩

/-- The output entry's position among its head's 64 products. -/
def within (q : Fin 256) : Fin 64 := ⟨q.val % 64, by have := q.isLt; omega⟩

theorem col_val (h : Fin 4) (d : Fin 256) : (col h d).val = h.val * 256 + d.val := rfl
theorem headOf_val (q : Fin 256) : (headOf q).val = q.val / 64 := rfl
theorem within_val (q : Fin 256) : (within q).val = q.val % 64 := rfl

/-- One output row from one input row and the weights `wfun k j` (contraction position `k`, product `j`). -/
def rowOut (row : Fin 1024 → EReal) (wfun : Fin 256 → Fin 64 → EReal) (q : Fin 256) : EReal :=
  row (col 3 q) + ∑ k : Fin 256, row (col (headOf q) k) * wfun k (within q)

/-- Two descriptions of one row, one weight table and one output position give one output entry. -/
theorem rowOut_congr {row row' : Fin 1024 → EReal} {wfun wfun' : Fin 256 → Fin 64 → EReal} {q q' : Fin 256}
    (hr : ∀ c, row c = row' c) (hw : ∀ k j, wfun k j = wfun' k j) (hq : q = q') :
    rowOut row wfun q = rowOut row' wfun' q' := by
  subst hq
  unfold rowOut
  rw [hr]
  congr 1
  exact Finset.sum_congr rfl fun k _ => by rw [hr, hw]

/-- The result over the three-axis input: batch `i 0`, sequence position `i 1`, output entry `i 2`; the weights as
    given, [64, 256], read transposed. -/
def G (x : (⟨3, ![16, 4096, 1024]⟩ : Shape).Idx → EReal) (w : (⟨2, ![64, 256]⟩ : Shape).Idx → EReal) :
    (⟨3, ![16, 4096, 256]⟩ : Shape).Idx → EReal :=
  fun i => rowOut (fun c => x (ix3 (i 0 : Fin 16) (i 1 : Fin 4096) c)) (fun k j => w (ix2 j k)) (i 2 : Fin 256)

/-- The same over the rows laid out as [65536, 1024], the weights already transposed to [256, 64]. -/
def G2 (x2 : (⟨2, ![65536, 1024]⟩ : Shape).Idx → EReal) (wt : (⟨2, ![256, 64]⟩ : Shape).Idx → EReal) :
    (⟨2, ![65536, 256]⟩ : Shape).Idx → EReal :=
  fun i => rowOut (fun c => x2 (ix2 (i 0 : Fin 65536) c)) (fun k j => wt (ix2 k j)) (i 1 : Fin 256)

theorem G_apply (x : (⟨3, ![16, 4096, 1024]⟩ : Shape).Idx → EReal) (w : (⟨2, ![64, 256]⟩ : Shape).Idx → EReal)
    (b : Fin 16) (s : Fin 4096) (q : Fin 256) :
    G x w (ix3 b s q) = rowOut (fun c => x (ix3 b s c)) (fun k j => w (ix2 j k)) q := rfl

theorem G2_apply (x2 : (⟨2, ![65536, 1024]⟩ : Shape).Idx → EReal) (wt : (⟨2, ![256, 64]⟩ : Shape).Idx → EReal)
    (r : Fin 65536) (q : Fin 256) :
    G2 x2 wt (ix2 r q) = rowOut (fun c => x2 (ix2 r c)) (fun k j => wt (ix2 k j)) q := rfl

end Cert.VResidual

end
-- ==== Proof.Payload.lean ====
/-
  The kernel body's arithmetic at one entry of its output block.

  A grid point holds a block of 2048 input rows and the whole transposed weight matrix. For each of the four heads the
  body takes the head's 256 columns of the block, multiplies them by the weights into a zero accumulator (the rounding
  of the operands to a narrower format is the identity on the extended reals), lays the four [2048, 64] products side
  by side along the columns and adds the last head's columns. So entry (p, q) of the result is the last head's entry
  plus the product of row p of head `q / 64` with weight column `q mod 64`.
-/
import proofs.«173702_j45672682226228_1_alg».proof.Proof.Gen.KernelIdeal.Skeleton
import proofs.«173702_j45672682226228_1_alg».proof.Proof.LibPlainMatmul
import proofs.«173702_j45672682226228_1_alg».proof.Proof.Spec
import Idealize.ShloMosaic.Lib.Pipeline.Value
import Idealize.ShloMosaic.Lib.ValueIdx

noncomputable section

namespace Cert.KernelIdeal.BodyValue

open Cert.KernelIdeal Cert.KernelIdeal.Gen Cert.VResidual
open Idealize.ShloMosaic Idealize.ShloMosaic.ValueIdx
open scoped BigOperators

/-- Four [2048, 64] pieces side by side: column `q` of the whole is column `q mod 64` of piece `q / 64`. -/
theorem concat_heads {α : Type} (a0 a1 a2 a3 : S2048x64.Idx → α)
    (h : Shape.Concatenates [S2048x64, S2048x64, S2048x64, S2048x64] S2048x256 1) (p : Fin 2048) (q : Fin 256) :
    concatenate S2048x256 1 [⟨S2048x64, a0⟩, ⟨S2048x64, a1⟩, ⟨S2048x64, a2⟩, ⟨S2048x64, a3⟩] h (ix2 p q)
      = (![a0, a1, a2, a3] : Fin 4 → S2048x64.Idx → α) (headOf q) (ix2 p (within q)) :=
  concatenate_ofFn_apply (t := S2048x256) (s₁ := S2048x64) (1 : Fin 2) (N := 4) (![a0, a1, a2, a3]) h rfl 64 rfl
    (ix2 p q) (headOf q) rfl (ix2 p (within q)) rfl
    (fun b hb => match b with
      | ⟨0, _⟩ => rfl
      | ⟨1, _⟩ => absurd rfl hb)

/-- One head's product: row `p` of the head's columns against weight column `j`. -/
theorem head_product (hc : S2048x256.ShapeCasts S2048x256) (hw : S256x64.ShapeCasts S256x64)
    (hb : FTy.bits .bf16 < FTy.bits .f32) (v0 : FVec Ideal S256x64 .bf16) (v : FVec Ideal S2048x256 .f32)
    (p : Fin 2048) (j : Fin 64) :
    matmul (F := Ideal) dot_S2048x256_S256x64_S2048x64_1_0_0_1_n_n none (truncf .bf16 (shapeCast S2048x256 v hc) hb)
        (shapeCast S256x64 v0 hw) (constant S2048x64 .f32 0x00000000#32) (ix2 p j)
      = ∑ k : Fin 256, v (ix2 p k) * v0 (ix2 k j) := by
  rw [shapeCast_self, shapeCast_self]
  exact Cert.PlainMatmul.matmul_zero_apply dot_S2048x256_S256x64_S2048x64_1_0_0_1_n_n rfl rfl rfl rfl rfl rfl none
    (truncf .bf16 v hb) v0 p j

/-- THE PAYLOAD at entry (p, q), from the values the body loaded: the last head's load at (p, q) plus the product of
    the load of head `q / 64` with the weights. -/
theorem pay_apply (v0 : Vec Ideal S256x64 .bf16) (v2 v6 v10 v14 v19 : Vec Ideal S2048x256 .f32) (p : Fin 2048) (q : Fin 256) :
    k0_pay1 (F := Ideal) v0 v2 v6 v10 v14 v19 (ix2 p q)
      = v19 (ix2 p q) + ∑ k : Fin 256, (![v2, v6, v10, v14] : Fin 4 → Vec Ideal S2048x256 .f32) (headOf q) (ix2 p k) * v0 (ix2 k (within q)) := by
  unfold k0_pay1
  rw [addf_apply, shapeCast_self, concat_heads]
  congr 1
  generalize headOf q = n
  match n with
  | ⟨0, _⟩ => exact head_product _ _ _ v0 v2 p (within q)
  | ⟨1, _⟩ => exact head_product _ _ _ v0 v6 p (within q)
  | ⟨2, _⟩ => exact head_product _ _ _ v0 v10 p (within q)
  | ⟨3, _⟩ => exact head_product _ _ _ v0 v14 p (within q)

end Cert.KernelIdeal.BodyValue

end
-- ==== Proof.Blocks.lean ====
/-
  From the body's block to the whole result array of the kernel region.

  The grid has 32 points; point t stages rows 2048·t … 2048·t + 2047 of the [65536, 1024] input (all 1024 columns),
  the whole [256, 64] transposed weight matrix, and writes back rows 2048·t … of the [65536, 256] result. Every row of
  the result is one row formula (`rowOut`) of the same row of the input, so what point t writes back is block t of
  `G2` of the two arrays as the region finds them; the 32 blocks tile the result, so the region leaves it at `G2`.
-/
import proofs.«173702_j45672682226228_1_alg».proof.Proof.Gen.KernelIdeal.Frame
import proofs.«173702_j45672682226228_1_alg».proof.Proof.Payload
import Idealize.ShloMosaic.Lib.Pipeline.Value

noncomputable section

namespace Cert.KernelIdeal.BodyValue

open Cert.KernelIdeal Cert.KernelIdeal.Gen Cert.VResidual
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-- The body's four column windows of the input block: window `n` holds columns `n·256 … n·256 + 255`. -/
theorem ld_head (x0 : Vec Ideal S2048x1024 .f32) (n : Fin 4) (p : Fin 2048) (k : Fin 256) :
    (![View.ld x0 r0_1, View.ld x0 r0_2, View.ld x0 r0_3, View.ld x0 r0_4] : Fin 4 → Vec Ideal S2048x256 .f32) n (ix2 p k)
      = x0 (ix2 p (col n k)) := by
  match n with
  | ⟨0, _⟩ =>
    show x0 _ = x0 _
    congr 1; funext a; apply Fin.ext
    match a with
    | ⟨0, _⟩ => show 0 + 1 * p.val = p.val; omega
    | ⟨1, _⟩ => show 0 + 1 * k.val = 0 * 256 + k.val; omega
  | ⟨1, _⟩ =>
    show x0 _ = x0 _
    congr 1; funext a; apply Fin.ext
    match a with
    | ⟨0, _⟩ => show 0 + 1 * p.val = p.val; omega
    | ⟨1, _⟩ => show 256 + 1 * k.val = 1 * 256 + k.val; omega
  | ⟨2, _⟩ =>
    show x0 _ = x0 _
    congr 1; funext a; apply Fin.ext
    match a with
    | ⟨0, _⟩ => show 0 + 1 * p.val = p.val; omega
    | ⟨1, _⟩ => show 512 + 1 * k.val = 2 * 256 + k.val; omega
  | ⟨3, _⟩ =>
    show x0 _ = x0 _
    congr 1; funext a; apply Fin.ext
    match a with
    | ⟨0, _⟩ => show 0 + 1 * p.val = p.val; omega
    | ⟨1, _⟩ => show 768 + 1 * k.val = 3 * 256 + k.val; omega

/-- WHAT THE BODY LEAVES in the output block, row by row: the row formula of the same row of the input block. -/
theorem block_apply (x0 : Vec Ideal S2048x1024 .f32) (x1 : Vec Ideal S256x64 .bf16) (p : Fin 2048) (q : Fin 256) :
    out0_2 x0 x1 (ix2 p q) = rowOut (fun cl => x0 (ix2 p cl)) (fun k j => x1 (ix2 k j)) q := by
  unfold out0_2
  rw [View.canon_unit_zero hz, pay_apply, View.ld_unit_zero (S := S256x64) hz]
  unfold rowOut
  congr 1
  · exact ld_head x0 3 p q
  · exact Finset.sum_congr rfl fun k _ => by rw [ld_head]

/-- Where each window's block sits at point `t`. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s blocks is row `2048·t + p` of the arrays. -/
def rowOf (t : Fin cfg0.N) (p : Fin 2048) : Fin 65536 :=
  ⟨t.val * 2048 + p.val, by have h := t.isLt; have hN : cfg0.N = 32 := N_0; have := p.isLt; omega⟩

/-- The input block at point `t` is those rows of the input array as the region finds it. -/
theorem xblk_apply (c : Dev nD) (t : Fin cfg0.N) (p : Fin 2048) (cl : Fin 1024) :
    (iblk m c 0 t : Vec Ideal S2048x1024 .f32) (ix2 p cl)
      = (V m c main_v0 : S65536x1024.Idx → Elt Ideal .f32) (ix2 (rowOf t p) cl) := by
  obtain ⟨e0, e1, -⟩ := index_facts t
  unfold iblk
  rw [View.read_apply]
  show V m c main_v0 _ = V m c main_v0 _
  congr 1; funext a; apply Fin.ext
  match a with
  | ⟨0, _⟩ => show win0_0.index t 0 * 2048 + 1 * p.val = t.val * 2048 + p.val; rw [e0]; omega
  | ⟨1, _⟩ => show win0_0.index t 1 * 1024 + 1 * cl.val = cl.val; rw [e1]; omega

/-- The weight block at every point is the whole transposed weight array. -/
theorem wblk_apply (c : Dev nD) (t : Fin cfg0.N) (k : Fin 256) (j : Fin 64) :
    (iblk m c 1 t : Vec Ideal S256x64 .bf16) (ix2 k j)
      = (V m c main_v2 : S256x64.Idx → Elt Ideal .bf16) (ix2 k j) := by
  obtain ⟨-, -, e0, e1, -⟩ := index_facts t
  unfold iblk
  rw [View.read_apply]
  show V m c main_v2 _ = V m c main_v2 _
  congr 1; funext a; apply Fin.ext
  match a with
  | ⟨0, _⟩ => show win0_1.index t 0 * 256 + 1 * k.val = k.val; rw [e0]; omega
  | ⟨1, _⟩ => show win0_1.index t 1 * 64 + 1 * j.val = j.val; rw [e1]; omega

/-- Entry `y` of what point `t` leaves is `G2` at the array index `i` in the same column, `2048·t` rows down. -/
theorem block_eq (c : Dev nD) (t : Fin cfg0.N) (y : S2048x256.Idx) (i : S65536x256.Idx)
    (h0 : (i 0).val = t.val * 2048 + (y 0).val) (h1 : (i 1).val = (y 1).val) :
    out0_2 (iblk m c 0 t) (iblk m c 1 t) y
      = G2 (V m c main_v0 : S65536x1024.Idx → Elt Ideal .f32) (V m c main_v2 : S256x64.Idx → Elt Ideal .bf16) i := by
  obtain ⟨p, q, rfl⟩ : ∃ (p : Fin 2048) (q : Fin 256), y = ix2 p q := ⟨y 0, y 1, eq_ix2 y⟩
  obtain ⟨r, q', rfl⟩ : ∃ (r : Fin 65536) (q' : Fin 256), i = ix2 r q' := ⟨i 0, i 1, eq_ix2 i⟩
  obtain rfl : q' = q := Fin.ext h1
  obtain rfl : r = rowOf t p := Fin.ext h0
  rw [G2_apply, block_apply]
  exact rowOut_congr (fun cl => xblk_apply m c t p cl) (fun k j => wblk_apply m c t k j) rfl

/-- WHAT POINT `t` WRITES BACK is block `t` of `G2` of the arrays as the region finds them. -/
theorem flushed_eq (c : Dev nD) (t : Fin cfg0.N) :
    (dats m 0 c).flushed 2 t
      = ((cfg0.win 2).blk t).view.read (Elt Ideal) (G2 (V m c main_v0 : S65536x1024.Idx → Elt Ideal .f32) (V m c main_v2 : S256x64.Idx → Elt Ideal .bf16)) := by
  obtain ⟨-, -, -, -, e0, e1⟩ := index_facts t
  show (cfg0.win 2).cut (grid0.coords t) ((dats m 0 c).after 2 t) = _
  rw [after0_2]
  funext j
  show out0_2 (iblk m c 0 t) (iblk m c 1 t) j = G2 _ _ (((cfg0.win 2).blk t).view.emb j)
  refine block_eq m c t j _ ?_ ?_
  · show win0_2.index t 0 * 2048 + 1 * (j 0).val = t.val * 2048 + (j 0).val; rw [e0]; omega
  · show win0_2.index t 1 * 256 + 1 * (j 1).val = (j 1).val; rw [e1]; omega

/-- An index of the result array is in point `t`'s block iff each coordinate is in the block's range. -/
theorem mem_blk (t : Fin cfg0.N) (i : S65536x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v3).slice (win0_2.rect t)).set ↔ _
  rw [View.set_slice_whole, Rect.mem_set_unit]
  exact Iff.rfl

/-- Row `r` of the result is written back by point `r / 2048`. -/
theorem cover (i : S65536x256.Idx) :
    ∃ t : Fin cfg0.N, (cfg0.win 2).flush t = true ∧ i ∈ ((cfg0.win 2).blk t).view.set := by
  have h0 : (i 0).val < 65536 := (i 0).isLt
  have h1 : (i 1).val < 256 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, e0, e1⟩ := index_facts t
  refine ⟨t, flush0_2 t, ?_⟩
  rw [mem_blk]
  intro a
  match a with
  | ⟨0, _⟩ =>
    show win0_2.index t 0 * 2048 ≤ (i 0).val ∧ (i 0).val < win0_2.index t 0 * 2048 + 2048
    rw [e0, ht]; omega
  | ⟨1, _⟩ =>
    show win0_2.index t 1 * 256 ≤ (i 1).val ∧ (i 1).val < win0_2.index t 1 * 256 + 256
    rw [e1]; omega

/-- THE RESULT ARRAY OF THE REGION after the run. -/
theorem final (c : Dev nD) :
    (dats m 0 c).arrAt 2 cfg0.N
      = G2 (V m c main_v0 : S65536x1024.Idx → Elt Ideal .f32) (V m c main_v2 : S256x64.Idx → Elt Ideal .bf16) :=
  (dats m 0 c).arrAt_eq_of_cover 2 _ (fun t _ => flushed_eq m c t) cover

end Cert.KernelIdeal.BodyValue

end
-- ==== Proof.HostSide.lean ====
/-
  The kernel program around its region, and its run read as a value.

  Before the region the program flattens the [16, 4096, 1024] input to [65536, 1024] rows (row `b·4096 + s` is batch b,
  position s) and transposes the [64, 256] weights to [256, 64] (rounding them to a narrower format, the identity on the
  extended reals); after the region it reshapes the [65536, 256] result back to [16, 4096, 256]. Reading each of these
  at an index turns `G2` of the flattened arrays into `G` of the arguments.
-/
import proofs.«173702_j45672682226228_1_alg».proof.Proof.Gen.KernelIdeal.Frame
import proofs.«173702_j45672682226228_1_alg».proof.Proof.Blocks
import Idealize.ShloMosaic.Lib.Pipeline.Value
import Idealize.ShloMosaic.Lib.StableHlo.Run

noncomputable section

namespace Cert.KernelIdeal.BodyValue

open Cert.KernelIdeal Cert.KernelIdeal.Gen Cert.VResidual
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- Row `b·4096 + s` of the flattened input. -/
def flatRow (b : Fin 16) (s : Fin 4096) : Fin 65536 :=
  ⟨b.val * 4096 + s.val, by have := b.isLt; have := s.isLt; omega⟩

/-- The flattened input read at a row and a column. -/
theorem flat_apply (x : S16x4096x1024.Idx → Elt Ideal .f32) (h : S16x4096x1024.ShapeCasts S65536x1024)
    (b : Fin 16) (s : Fin 4096) (cl : Fin 1024) :
    shapeCast S65536x1024 x h (ix2 (flatRow b s) cl) = x (ix3 b s cl) :=
  shapeCast_apply x h (ix2 (flatRow b s) cl) (ix3 b s cl) (by
    rewrite [Shape.rowMajor_val_three, Shape.rowMajor_val_two]
    show (b.val * 4096 + s.val) * 1024 + cl.val = (b.val * 4096 + s.val) * 1024 + cl.val
    rfl)

/-- The transposed weights read at an index. -/
theorem transposed_apply (w : S64x256.Idx → Elt Ideal .f32) (ht : S64x256.Transposes [1, 0] S256x64)
    (hb : FTy.bits .bf16 < FTy.bits .f32) (k : Fin 256) (j : Fin 64) :
    (truncf (F := Ideal) .bf16 (transpose S256x64 [1, 0] w ht) hb) (ix2 k j) = w (ix2 j k) := by
  rw [truncf_apply]
  exact transpose_apply [1, 0] w ht (ix2 k j) (ix2 j k) (fun b => match b with
    | ⟨0, _⟩ => rfl
    | ⟨1, _⟩ => rfl)

/-- The row formula over the flattened arrays is the row formula over the arguments. -/
theorem G2_flat (x : S16x4096x1024.Idx → Elt Ideal .f32) (w : S64x256.Idx → Elt Ideal .f32)
    (h : S16x4096x1024.ShapeCasts S65536x1024) (ht : S64x256.Transposes [1, 0] S256x64)
    (hb : FTy.bits .bf16 < FTy.bits .f32) (b : Fin 16) (s : Fin 4096) (q : Fin 256) :
    G2 (shapeCast S65536x1024 x h) (truncf (F := Ideal) .bf16 (transpose S256x64 [1, 0] w ht) hb) (ix2 (flatRow b s) q)
      = G x w (ix3 b s q) := by
  rw [G2_apply, G_apply]
  exact rowOut_congr (fun cl => flat_apply x h b s cl) (fun k j => transposed_apply w ht hb k j) rfl

/-- The region finds the input flattened. -/
theorem V_rows (c : Dev nD) :
    (V m c main_v0 : S65536x1024.Idx → Elt Ideal .f32)
      = shapeCast S65536x1024 (m ((c : Thread nD τ).loc main_arg0)) shapeCasts_S16x4096x1024_S65536x1024 := by
  show StableHlo.after hostOps0 (fun b => m (c, b)) (Proc.devRef .tc main_v0) = _
  after_results <;> rfl

/-- The region finds the weights transposed. -/
theorem V_weights (c : Dev nD) :
    (V m c main_v2 : S256x64.Idx → Elt Ideal .bf16)
      = truncf (F := Ideal) .bf16 (transpose S256x64 [1, 0] (m ((c : Thread nD τ).loc main_arg3)) transposes_S64x256_S256x64_1_0) bitsLt_bf16_f32 := by
  show StableHlo.after hostOps0 (fun b => m (c, b)) (Proc.devRef .tc main_v2) = _
  after_results <;> rfl

/-- THE PROGRAM'S RESULT after the lines that follow the region. -/
theorem result_eq (c : Dev nD) :
    Pipeline.afterTail₀ cfgs (dats m) 0 (V0 m) [hostOps1] c main_v4
      = G (m ((c : Thread nD τ).loc main_arg0)) (m ((c : Thread nD τ).loc main_arg3)) := by
  unfold Pipeline.afterTail₀
  show StableHlo.after hostOps1 _ (Proc.devRef .tc main_v4) = _
  after_results
  have hA : (Pipeline.withArrays (cfgs 0).spec c (V0 m c) (fun w => (dats m 0 c).arrAt w (cfgs 0).N)
        (Proc.devRef .tc main_v3) : S65536x256.Idx → Elt Ideal .f32)
      = G2 (shapeCast S65536x1024 (m ((c : Thread nD τ).loc main_arg0)) shapeCasts_S16x4096x1024_S65536x1024)
          (truncf (F := Ideal) .bf16 (transpose S256x64 [1, 0] (m ((c : Thread nD τ).loc main_arg3)) transposes_S64x256_S256x64_1_0) bitsLt_bf16_f32) :=
    ((Pipeline.withArrays_arr spec0 launch0.win.arr_inj c _ _ 2).trans (final m c)).trans (by rw [V_rows, V_weights])
  funext i
  obtain ⟨b, s, q, rfl⟩ : ∃ (b : Fin 16) (s : Fin 4096) (q : Fin 256), i = ix3 b s q := ⟨i 0, i 1, i 2, eq_ix3 i⟩
  show shapeCast S16x4096x256 (Pipeline.withArrays (cfgs 0).spec c (V0 m c) (fun w => (dats m 0 c).arrAt w (cfgs 0).N)
        (Proc.devRef .tc main_v3) : S65536x256.Idx → Elt Ideal .f32) shapeCasts_S65536x256_S16x4096x256 (ix3 b s q) = _
  rw [hA, shapeCast_apply _ shapeCasts_S65536x256_S16x4096x256 (ix3 b s q) (ix2 (flatRow b s) q) (by
    rewrite [Shape.rowMajor_val_two, Shape.rowMajor_val_three]
    show (b.val * 4096 + s.val) * 256 + q.val = (b.val * 4096 + s.val) * 256 + q.val
    rfl)]
  exact G2_flat _ _ _ _ _ b s q

/-- THE KERNEL PROGRAM'S RUN, read as a value: every weakly fair execution ends with the result array at `G` of the
    first and fourth arguments, and every argument array as it was. -/
theorem run : θ_run defs (onTc (τ := τ) (main (F := Ideal))) ⟨m, fun _ => 0, ρ⟩ fun r => ∀ c : Dev nD,
      r.2.mem ((c.tc : Thread nD τ).loc main_v4)
        = G (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.BodyValue

end
-- ==== Proof.RefValue.lean ====
/-
  The reference, read entry by entry.

  The reference reshapes the input to [16, 4096, 4, 256], moves the head axis in front of the sequence axis, multiplies
  every head by the weight matrix (contracting the 256 entries of the head), moves the head axis back and flattens the
  four groups of 64 products to 256 entries; to that it adds the last head, cut out of the same transposed array and
  flattened. Followed coordinate by coordinate, each layout step only renames an index, and the sum is the one in
  `rowOut`. (The attention scores the reference also builds never reach its result.)
-/
import proofs.«173702_j45672682226228_1_alg».proof.Proof.Gen.ReferenceIdeal.Read
import proofs.«173702_j45672682226228_1_alg».proof.Proof.Spec

noncomputable section

namespace Cert.ReferenceIdeal.RefValue

open Cert.ReferenceIdeal Cert.ReferenceIdeal.Gen Cert.ReferenceIdeal.Read Cert.VResidual
open Idealize.ShloMosaic Idealize.ShloMosaic.ValueIdx
open scoped BigOperators

/-- Flattening [16, 4096, 4, 256] to [16, 4096, 1024]: entry `d` of head `h` is entry `h·256 + d` of the row. -/
theorem idx_v0_ix (b : Fin 16) (s : Fin 4096) (h : Fin 4) (d : Fin 256) :
    idx_main_v0 (ix4 b s h d) = ix3 b s (col h d) := by
  funext a; apply Fin.ext
  have hb := b.isLt; have hs := s.isLt; have hh := h.isLt; have hd := d.isLt
  match a with
  | ⟨0, _⟩ => show (((b.val * 4096 + s.val) * 4 + h.val) * 256 + d.val) / 4194304 = b.val; omega
  | ⟨1, _⟩ => show (((b.val * 4096 + s.val) * 4 + h.val) * 256 + d.val) / 1024 % 4096 = s.val; omega
  | ⟨2, _⟩ => show (((b.val * 4096 + s.val) * 4 + h.val) * 256 + d.val) % 1024 = h.val * 256 + d.val; omega

/-- Swapping the head and sequence axes. -/
theorem idx_v1_ix (b : Fin 16) (h : Fin 4) (s : Fin 4096) (d : Fin 256) :
    idx_main_v1 (ix4 b h s d) = ix4 b s h d := by
  funext a; apply Fin.ext
  match a with
  | ⟨0, _⟩ => rfl
  | ⟨1, _⟩ => rfl
  | ⟨2, _⟩ => rfl
  | ⟨3, _⟩ => rfl

/-- The transposed, reshaped input at (batch, head, position, entry) is the input row's entry `col h d`. -/
theorem heads_apply (x : (⟨S16x4096x1024, .f32⟩ : BufTy).Contents (Elt Ideal)) (b : Fin 16) (h : Fin 4) (s : Fin 4096) (d : Fin 256) :
    val_main_v1 (F := Ideal) x (ix4 b h s d) = x (ix3 b s (col h d)) := by
  rw [val_main_v1_apply, idx_v1_ix, val_main_v0_apply, idx_v0_ix]

/-- The slice keeps head 3 only. -/
theorem idx_v22_ix (b : Fin 16) (s : Fin 4096) (d : Fin 256) :
    idx_main_v22 (ix4 b (0 : Fin 1) s d) = ix4 b (3 : Fin 4) s d := by
  funext a; apply Fin.ext
  match a with
  | ⟨0, _⟩ => rfl
  | ⟨1, _⟩ => rfl
  | ⟨2, _⟩ => rfl
  | ⟨3, _⟩ => rfl

/-- Dropping the sliced unit axis. -/
theorem idx_v23_ix (b : Fin 16) (s : Fin 4096) (q : Fin 256) :
    idx_main_v23 (ix3 b s q) = ix4 b (0 : Fin 1) s q := by
  funext a; apply Fin.ext
  have hb := b.isLt; have hs := s.isLt; have hq := q.isLt
  match a with
  | ⟨0, _⟩ => show ((b.val * 4096 + s.val) * 256 + q.val) / 1048576 = b.val; omega
  | ⟨1, _⟩ => rfl
  | ⟨2, _⟩ => show ((b.val * 4096 + s.val) * 256 + q.val) / 256 % 4096 = s.val; omega
  | ⟨3, _⟩ => show ((b.val * 4096 + s.val) * 256 + q.val) % 256 = q.val; omega

/-- Splitting an output entry into its head and its place among the head's 64 products. -/
theorem idx_v21_ix (b : Fin 16) (s : Fin 4096) (q : Fin 256) :
    idx_main_v21 (ix3 b s q) = ix4 b s (headOf q) (within q) := by
  funext a; apply Fin.ext
  have hb := b.isLt; have hs := s.isLt; have hq := q.isLt
  match a with
  | ⟨0, _⟩ => show ((b.val * 4096 + s.val) * 256 + q.val) / 1048576 = b.val; omega
  | ⟨1, _⟩ => show ((b.val * 4096 + s.val) * 256 + q.val) / 256 % 4096 = s.val; omega
  | ⟨2, _⟩ => show ((b.val * 4096 + s.val) * 256 + q.val) / 64 % 4 = q.val / 64; omega
  | ⟨3, _⟩ => show ((b.val * 4096 + s.val) * 256 + q.val) % 64 = q.val % 64; omega

/-- Moving the head axis back behind the sequence axis. -/
theorem idx_v20_ix (b : Fin 16) (s : Fin 4096) (h : Fin 4) (j : Fin 64) :
    idx_main_v20 (ix4 b s h j) = ix4 b h s j := by
  funext a; apply Fin.ext
  match a with
  | ⟨0, _⟩ => rfl
  | ⟨1, _⟩ => rfl
  | ⟨2, _⟩ => rfl
  | ⟨3, _⟩ => rfl

theorem lidx_v4_ix (b : Fin 16) (h : Fin 4) (s : Fin 4096) (j : Fin 64) (k : Fin 256) :
    lidx_main_v4 (ix4 b h s j) k = ix4 b h s k := by
  funext a; apply Fin.ext
  match a with
  | ⟨0, _⟩ => rfl
  | ⟨1, _⟩ => rfl
  | ⟨2, _⟩ => rfl
  | ⟨3, _⟩ => rfl

theorem ridx_v4_ix (b : Fin 16) (h : Fin 4) (s : Fin 4096) (j : Fin 64) (k : Fin 256) :
    ridx_main_v4 (ix4 b h s j) k = ix2 j k := by
  funext a; apply Fin.ext
  match a with
  | ⟨0, _⟩ => rfl
  | ⟨1, _⟩ => rfl

/-- THE REFERENCE'S RESULT is `G` of its first and fourth arguments. -/
theorem result_eq (x : (⟨S16x4096x1024, .f32⟩ : BufTy).Contents (Elt Ideal)) (w : (⟨S64x256, .f32⟩ : BufTy).Contents (Elt Ideal)) :
    val_main_v24 (F := Ideal) x w = G x w := by
  funext i
  obtain ⟨b, s, q, rfl⟩ : ∃ (b : Fin 16) (s : Fin 4096) (q : Fin 256), i = ix3 b s q := ⟨i 0, i 1, i 2, eq_ix3 i⟩
  rw [val_main_v24_apply, G_apply]
  unfold rowOut
  show _ + _ = _
  congr 1
  · rw [val_main_v23_apply, idx_v23_ix, val_main_v22_apply, idx_v22_ix, heads_apply]
  · rw [val_main_v21_apply, idx_v21_ix, val_main_v20_apply, idx_v20_ix, val_main_v4_apply]
    refine Finset.sum_congr rfl fun k _ => ?_
    rw [lidx_v4_ix, ridx_v4_ix, heads_apply]

end Cert.ReferenceIdeal.RefValue

end
-- ==== Proof.lean ====
/-
  The certificate: the kernel and its reference compute one function over the extended reals.

  Each input row of 1024 entries is four heads of 256 entries. Both programs multiply every head by the same
  [64, 256] weight matrix (contracting the head's 256 entries), lay the four groups of 64 products side by side, and
  add the last head's 256 entries:  out[q] = row[768 + q] + Σ_k row[(q / 64)·256 + k] · W[q mod 64, k]  (Proof/Spec.lean).

  The kernel flattens the input to [65536, 1024] rows, transposes the weights, and computes the formula 2048 rows at
  a time on a grid of 32 points (Proof/Payload.lean: one block; Proof/Blocks.lean: the blocks tile the result;
  Proof/HostSide.lean: the reshapes around the region). The reference splits the head axis off, moves it in front of
  the sequence axis, contracts, and moves it back (Proof/RefValue.lean); the attention scores it also builds from the
  other two weight matrices never reach its result. The two sums run over the same 256 contraction positions in the
  same order with the same factors, and the two additions have their operands in the same order, so no law of the
  extended reals beyond reading each array at an index is needed, and the finiteness of the inputs is not used.
  The kernel's idealization rewrites nothing, so `preserves` has nothing to state.
-/
import proofs.«173702_j45672682226228_1_alg».proof.Defs
import proofs.«173702_j45672682226228_1_alg».proof.Proof.Gen.Kernel
import proofs.«173702_j45672682226228_1_alg».proof.Proof.Gen.Kernel.Skeleton
import proofs.«173702_j45672682226228_1_alg».proof.Proof.Gen.Kernel.Launch
import proofs.«173702_j45672682226228_1_alg».proof.Proof.Gen.Kernel.Points
import proofs.«173702_j45672682226228_1_alg».proof.Proof.Gen.Kernel.Frame
import proofs.«173702_j45672682226228_1_alg».proof.Proof.Gen.KernelIdeal
import proofs.«173702_j45672682226228_1_alg».proof.Proof.Gen.KernelIdeal.Skeleton
import proofs.«173702_j45672682226228_1_alg».proof.Proof.Gen.KernelIdeal.Launch
import proofs.«173702_j45672682226228_1_alg».proof.Proof.Gen.KernelIdeal.Points
import proofs.«173702_j45672682226228_1_alg».proof.Proof.Gen.KernelIdeal.Frame
import proofs.«173702_j45672682226228_1_alg».proof.Proof.Gen.ReferenceIdeal
import proofs.«173702_j45672682226228_1_alg».proof.Proof.Gen.ReferenceIdeal.Run
import proofs.«173702_j45672682226228_1_alg».proof.Proof.Gen.ReferenceIdeal.Read
import proofs.«173702_j45672682226228_1_alg».proof.Proof.Gen.Pre_finite_inputs
import proofs.«173702_j45672682226228_1_alg».proof.Proof.HostSide
import proofs.«173702_j45672682226228_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: it runs, and writes no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with their result arrays at `G` of the input and
    the value weights. -/
theorem algebraic : Cert.algebraic_KernelIdeal_ReferenceIdeal := by
  intro m ρ m' ρ' _ hagree
  refine ⟨fun c => Cert.VResidual.G (m ((c.tc : Thread Cert.KernelIdeal.nD Cert.KernelIdeal.τ).loc Cert.KernelIdeal.main_arg0))
      (m ((c.tc : Thread Cert.KernelIdeal.nD Cert.KernelIdeal.τ).loc Cert.KernelIdeal.main_arg3)),
    Cert.KernelIdeal.BodyValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
